-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8x128x128 : Shape := ⟨4, ![64, 8, 128, 128]⟩
abbrev S1x72x72 : Shape := ⟨3, ![1, 72, 72]⟩
abbrev S1x1x72x1 : Shape := ⟨4, ![1, 1, 72, 1]⟩
abbrev S_ : Shape := ⟨0, ![]⟩

class Facts : Prop where
  bcast_S_S64x8x128x128 : S_.BroadcastsInDim S64x8x128x128 (![] : Fin 0 → Fin S64x8x128x128.rank)
  reducesTo_S64x8x128x128_S_d0_1_2_3 : S64x8x128x128.ReducesTo [0, 1, 2, 3] S_
  h_S_ : 0 < S_.numel
  bcast_S_S1x72x72 : S_.BroadcastsInDim S1x72x72 (![] : Fin 0 → Fin S1x72x72.rank)
  reducesTo_S1x72x72_S_d0_1_2 : S1x72x72.ReducesTo [0, 1, 2] S_
  bcast_S_S1x1x72x1 : S_.BroadcastsInDim S1x1x72x1 (![] : Fin 0 → Fin S1x1x72x1.rank)
  reducesTo_S1x1x72x1_S_d0_1_2_3 : S1x1x72x1.ReducesTo [0, 1, 2, 3] S_

variable [Facts]

def fn {F : FTy → Type} [FloatOps F] (main_arg0 : FVec F S64x8x128x128 .f32) (main_arg1 : FVec F S1x72x72 .f32) (main_arg2 : FVec F S1x1x72x1 .f32) : IVec S_ 1 :=
  let main_v0 : FVec F S64x8x128x128 .f32 := Host.absf main_arg0
  let main_cst : FVec F S_ .f32 := constant S_ .f32 0x7F800000#32
  let main_v1 : FVec F S64x8x128x128 .f32 := broadcastInDim S64x8x128x128 ![] bcast_S_S64x8x128x128 main_cst
  let main_v2 : IVec S64x8x128x128 1 := cmpf .olt main_v0 main_v1
  let main_c : IVec S_ 1 := constantI S_ 1 1#1
  let main_v3 : IVec S_ 1 := (fun x v => Host.reduce IntOp.andi x v reducesTo_S64x8x128x128_S_d0_1_2_3 h_S_) main_v2 main_c
  let main_v4 : FVec F S1x72x72 .f32 := Host.absf main_arg1
  let main_cst_0 : FVec F S_ .f32 := constant S_ .f32 0x7F800000#32
  let main_v5 : FVec F S1x72x72 .f32 := broadcastInDim S1x72x72 ![] bcast_S_S1x72x72 main_cst_0
  let main_v6 : IVec S1x72x72 1 := cmpf .olt main_v4 main_v5
  let main_c_1 : IVec S_ 1 := constantI S_ 1 1#1
  let main_v7 : IVec S_ 1 := (fun x v => Host.reduce IntOp.andi x v reducesTo_S1x72x72_S_d0_1_2 h_S_) main_v6 main_c_1
  let main_v8 : IVec S_ 1 := andi main_v3 main_v7
  let main_v9 : FVec F S1x1x72x1 .f32 := Host.absf main_arg2
  let main_cst_2 : FVec F S_ .f32 := constant S_ .f32 0x7F800000#32
  let main_v10 : FVec F S1x1x72x1 .f32 := broadcastInDim S1x1x72x1 ![] bcast_S_S1x1x72x1 main_cst_2
  let main_v11 : IVec S1x1x72x1 1 := cmpf .olt main_v9 main_v10
  let main_c_3 : IVec S_ 1 := constantI S_ 1 1#1
  let main_v12 : IVec S_ 1 := (fun x v => Host.reduce IntOp.andi x v reducesTo_S1x1x72x1_S_d0_1_2_3 h_S_) main_v11 main_c_3
  let main_v13 : IVec S_ 1 := andi main_v8 main_v12
  main_v13
-- ==== Kernel.lean ====
abbrev S64x8x128x128 : Shape := ⟨4, ![64, 8, 128, 128]⟩
abbrev S1x72x72 : Shape := ⟨3, ![1, 72, 72]⟩
abbrev S1x1x72x1 : Shape := ⟨4, ![1, 1, 72, 1]⟩
abbrev S_ : Shape := ⟨0, ![]⟩
abbrev S64x8x130x130 : Shape := ⟨4, ![64, 8, 130, 130]⟩
abbrev S64x8x1x128x128 : Shape := ⟨5, ![64, 8, 1, 128, 128]⟩
abbrev S64x8x9x128x128 : Shape := ⟨5, ![64, 8, 9, 128, 128]⟩
abbrev S64x72x16384 : Shape := ⟨3, ![64, 72, 16384]⟩
abbrev S1048576x72 : Shape := ⟨2, ![1048576, 72]⟩
abbrev S72x72 : Shape := ⟨2, ![72, 72]⟩
abbrev S16384x72 : Shape := ⟨2, ![16384, 72]⟩
abbrev S64x72x128x128 : Shape := ⟨4, ![64, 72, 128, 128]⟩

abbrev nBuf : Space → Nat
  | .hbm => 30
  | .vmem => 5
  | .smem => 0
  | _ => 0

abbrev bufTy : (tb : Table) → Fin (tcTables nBuf tb) → BufTy
  | .hbm, ⟨0, _⟩ => ⟨S64x8x128x128, .f32⟩
  | .hbm, ⟨1, _⟩ => ⟨S1x72x72, .f32⟩
  | .hbm, ⟨2, _⟩ => ⟨S1x1x72x1, .f32⟩
  | .hbm, ⟨3, _⟩ => ⟨S_, .i32⟩
  | .hbm, ⟨4, _⟩ => ⟨S_, .f32⟩
  | .hbm, ⟨5, _⟩ => ⟨S64x8x130x130, .f32⟩
  | .hbm, ⟨6, _⟩ => ⟨S64x8x128x128, .f32⟩
  | .hbm, ⟨7, _⟩ => ⟨S64x8x128x128, .f32⟩
  | .hbm, ⟨8, _⟩ => ⟨S64x8x128x128, .f32⟩
  | .hbm, ⟨9, _⟩ => ⟨S64x8x128x128, .f32⟩
  | .hbm, ⟨10, _⟩ => ⟨S64x8x128x128, .f32⟩
  | .hbm, ⟨11, _⟩ => ⟨S64x8x128x128, .f32⟩
  | .hbm, ⟨12, _⟩ => ⟨S64x8x128x128, .f32⟩
  | .hbm, ⟨13, _⟩ => ⟨S64x8x128x128, .f32⟩
  | .hbm, ⟨14, _⟩ => ⟨S64x8x128x128, .f32⟩
  | .hbm, ⟨15, _⟩ => ⟨S64x8x1x128x128, .f32⟩
  | .hbm, ⟨16, _⟩ => ⟨S64x8x1x128x128, .f32⟩
  | .hbm, ⟨17, _⟩ => ⟨S64x8x1x128x128, .f32⟩
  | .hbm, ⟨18, _⟩ => ⟨S64x8x1x128x128, .f32⟩
  | .hbm, ⟨19, _⟩ => ⟨S64x8x1x128x128, .f32⟩
  | .hbm, ⟨20, _⟩ => ⟨S64x8x1x128x128, .f32⟩
  | .hbm, ⟨21, _⟩ => ⟨S64x8x1x128x128, .f32⟩
  | .hbm, ⟨22, _⟩ => ⟨S64x8x1x128x128, .f32⟩
  | .hbm, ⟨23, _⟩ => ⟨S64x8x1x128x128, .f32⟩
  | .hbm, ⟨24, _⟩ => ⟨S64x8x9x128x128, .f32⟩
  | .hbm, ⟨25, _⟩ => ⟨S64x72x16384, .f32⟩
  | .hbm, ⟨26, _⟩ => ⟨S1048576x72, .f32⟩
  | .hbm, ⟨27, _⟩ => ⟨S72x72, .f32⟩
  | .hbm, ⟨28, _⟩ => ⟨S1048576x72, .f32⟩
  | .hbm, ⟨29, _⟩ => ⟨S64x72x128x128, .f32⟩
  | .local _ .vmem, ⟨0, _⟩ => ⟨S16384x72, .f32⟩
  | .local _ .vmem, ⟨1, _⟩ => ⟨S16384x72, .f32⟩
  | .local _ .vmem, ⟨2, _⟩ => ⟨S72x72, .f32⟩
  | .local _ .vmem, ⟨3, _⟩ => ⟨S16384x72, .f32⟩
  | .local _ .vmem, ⟨4, _⟩ => ⟨S16384x72, .f32⟩
  | _, _ => ⟨S64x8x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x72 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S72x72 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16384x72 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S64x8x128x128_S64x8x130x130_000_000_110_110 : S64x8x128x128.Pads (![0, 0, 1, 1] : Fin 4 → Nat) ![0, 0, 1, 1] ![0, 0, 0, 0] S64x8x130x130
  h_S_ : 0 < S_.numel
  slices_S64x8x130x130_S64x8x128x128_0_0_0_0 : S64x8x130x130.Slices ![0, 0, 0, 0] S64x8x128x128
  slices_S64x8x130x130_S64x8x128x128_0_0_0_1 : S64x8x130x130.Slices ![0, 0, 0, 1] S64x8x128x128
  slices_S64x8x130x130_S64x8x128x128_0_0_0_2 : S64x8x130x130.Slices ![0, 0, 0, 2] S64x8x128x128
  slices_S64x8x130x130_S64x8x128x128_0_0_1_0 : S64x8x130x130.Slices ![0, 0, 1, 0] S64x8x128x128
  slices_S64x8x130x130_S64x8x128x128_0_0_1_1 : S64x8x130x130.Slices ![0, 0, 1, 1] S64x8x128x128
  slices_S64x8x130x130_S64x8x128x128_0_0_1_2 : S64x8x130x130.Slices ![0, 0, 1, 2] S64x8x128x128
  slices_S64x8x130x130_S64x8x128x128_0_0_2_0 : S64x8x130x130.Slices ![0, 0, 2, 0] S64x8x128x128
  slices_S64x8x130x130_S64x8x128x128_0_0_2_1 : S64x8x130x130.Slices ![0, 0, 2, 1] S64x8x128x128
  slices_S64x8x130x130_S64x8x128x128_0_0_2_2 : S64x8x130x130.Slices ![0, 0, 2, 2] S64x8x128x128
  bcast_S64x8x128x128_S64x8x1x128x128_0_1_3_4 : S64x8x128x128.BroadcastsInDim S64x8x1x128x128 (![0, 1, 3, 4] : Fin 4 → Fin S64x8x1x128x128.rank)
  concatenates_S64x8x1x128x128_S64x8x1x128x128_S64x8x1x128x128_S64x8x1x128x128_S64x8x1x128x128_S64x8x1x128x128_S64x8x1x128x128_S64x8x1x128x128_S64x8x1x128x128_S64x8x9x128x128_d2 : Shape.Concatenates [S64x8x1x128x128, S64x8x1x128x128, S64x8x1x128x128, S64x8x1x128x128, S64x8x1x128x128, S64x8x1x128x128, S64x8x1x128x128, S64x8x1x128x128, S64x8x1x128x128] S64x8x9x128x128 2
  shapeCasts_S64x8x9x128x128_S64x72x16384 : S64x8x9x128x128.ShapeCasts S64x72x16384
  shapeCasts_S64x72x16384_S1048576x72 : S64x72x16384.ShapeCasts S1048576x72
  shapeCasts_S1x72x72_S72x72 : S1x72x72.ShapeCasts S72x72
  inb_S16384x72_S16384x72_0_0 : ∀ a, (![0, 0] : Fin 2 → Nat) a + S16384x72.size a ≤ S16384x72.size a
  h_S16384x72 : 0 < S16384x72.numel
  shapeCasts_S16384x72_S16384x72 : S16384x72.ShapeCasts S16384x72
  inb_S72x72_S72x72_0_0 : ∀ a, (![0, 0] : Fin 2 → Nat) a + S72x72.size a ≤ S72x72.size a
  h_S72x72 : 0 < S72x72.numel
  shapeCasts_S72x72_S72x72 : S72x72.ShapeCasts S72x72
  shapeCasts_S1048576x72_S64x72x128x128 : S1048576x72.ShapeCasts S64x72x128x128
  dot_S16384x72_S72x72_S16384x72_1_0_0_1_n_n_wf : DotDims.WF S16384x72 S72x72 S16384x72 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x72.size a ≤ S1048576x72.size a
  hwx0_0 : ∀ i : grid0.Coords, EltTy.bits .f32 = 32 ∨ (Rect.block (s := S1048576x72) S16384x72.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S72x72.size a ≤ S72x72.size a
  hwx0_1 : ∀ i : grid0.Coords, EltTy.bits .f32 = 32 ∨ (Rect.block (s := S72x72) S72x72.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16384x72.size a ≤ S1048576x72.size a
  hwx0_2 : ∀ i : grid0.Coords, EltTy.bits .f32 = 32 ∨ (Rect.block (s := S1048576x72) S16384x72.size (cc0_transform_2 i) (hinb0_2 i)).WholeWords (EltTy.packing .f32)

variable [Facts₀]

def dot_S16384x72_S72x72_S16384x72_1_0_0_1_n_n : DotDims S16384x72 S72x72 S16384x72 where
  lhsContracting := [1]
  rhsContracting := [0]
  lhsNonContracting := [0]
  rhsNonContracting := [1]
  lhsBatch := []
  rhsBatch := []
  wf := dot_S16384x72_S72x72_S16384x72_1_0_0_1_n_n_wf

abbrev win0_0 : Pipeline.Window sig grid0 :=
  Pipeline.Window.ofSpec (Memref.whole main_v21) S16384x72.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S72x72.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S16384x72.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x8x128x128 : Shape := ⟨4, ![64, 8, 128, 128]⟩
abbrev S1x72x72 : Shape := ⟨3, ![1, 72, 72]⟩
abbrev S1x1x72x1 : Shape := ⟨4, ![1, 1, 72, 1]⟩
abbrev S_ : Shape := ⟨0, ![]⟩
abbrev S64x8x130x130 : Shape := ⟨4, ![64, 8, 130, 130]⟩
abbrev S64x8x1x128x128 : Shape := ⟨5, ![64, 8, 1, 128, 128]⟩
abbrev S64x8x9x128x128 : Shape := ⟨5, ![64, 8, 9, 128, 128]⟩
abbrev S64x72x16384 : Shape := ⟨3, ![64, 72, 16384]⟩
abbrev S1x1048576x72 : Shape := ⟨3, ![1, 1048576, 72]⟩
abbrev S64x72x128x128 : Shape := ⟨4, ![64, 72, 128, 128]⟩

abbrev nBuf : Space → Nat
  | .hbm => 29
  | .vmem => 0
  | .smem => 0
  | _ => 0

abbrev bufTy : (tb : Table) → Fin (tcTables nBuf tb) → BufTy
  | .hbm, ⟨0, _⟩ => ⟨S64x8x128x128, .f32⟩
  | .hbm, ⟨1, _⟩ => ⟨S1x72x72, .f32⟩
  | .hbm, ⟨2, _⟩ => ⟨S1x1x72x1, .f32⟩
  | .hbm, ⟨3, _⟩ => ⟨S_, .i32⟩
  | .hbm, ⟨4, _⟩ => ⟨S_, .f32⟩
  | .hbm, ⟨5, _⟩ => ⟨S64x8x130x130, .f32⟩
  | .hbm, ⟨6, _⟩ => ⟨S64x8x128x128, .f32⟩
  | .hbm, ⟨7, _⟩ => ⟨S64x8x128x128, .f32⟩
  | .hbm, ⟨8, _⟩ => ⟨S64x8x128x128, .f32⟩
  | .hbm, ⟨9, _⟩ => ⟨S64x8x128x128, .f32⟩
  | .hbm, ⟨10, _⟩ => ⟨S64x8x128x128, .f32⟩
  | .hbm, ⟨11, _⟩ => ⟨S64x8x128x128, .f32⟩
  | .hbm, ⟨12, _⟩ => ⟨S64x8x128x128, .f32⟩
  | .hbm, ⟨13, _⟩ => ⟨S64x8x128x128, .f32⟩
  | .hbm, ⟨14, _⟩ => ⟨S64x8x128x128, .f32⟩
  | .hbm, ⟨15, _⟩ => ⟨S64x8x1x128x128, .f32⟩
  | .hbm, ⟨16, _⟩ => ⟨S64x8x1x128x128, .f32⟩
  | .hbm, ⟨17, _⟩ => ⟨S64x8x1x128x128, .f32⟩
  | .hbm, ⟨18, _⟩ => ⟨S64x8x1x128x128, .f32⟩
  | .hbm, ⟨19, _⟩ => ⟨S64x8x1x128x128, .f32⟩
  | .hbm, ⟨20, _⟩ => ⟨S64x8x1x128x128, .f32⟩
  | .hbm, ⟨21, _⟩ => ⟨S64x8x1x128x128, .f32⟩
  | .hbm, ⟨22, _⟩ => ⟨S64x8x1x128x128, .f32⟩
  | .hbm, ⟨23, _⟩ => ⟨S64x8x1x128x128, .f32⟩
  | .hbm, ⟨24, _⟩ => ⟨S64x8x9x128x128, .f32⟩
  | .hbm, ⟨25, _⟩ => ⟨S64x72x16384, .f32⟩
  | .hbm, ⟨26, _⟩ => ⟨S1x1048576x72, .f32⟩
  | .hbm, ⟨27, _⟩ => ⟨S1x1048576x72, .f32⟩
  | .hbm, ⟨28, _⟩ => ⟨S64x72x128x128, .f32⟩
  | _, _ => ⟨S64x8x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩

abbrev nD : Nat := 1
abbrev τ : Topo := Topo.v7x

variable {F : FTy → Type} [FloatOps F]

class Facts₀ : Prop where
  pads_S64x8x128x128_S64x8x130x130_000_000_110_110 : S64x8x128x128.Pads (![0, 0, 1, 1] : Fin 4 → Nat) ![0, 0, 1, 1] ![0, 0, 0, 0] S64x8x130x130
  h_S_ : 0 < S_.numel
  slices_S64x8x130x130_S64x8x128x128_0_0_0_0 : S64x8x130x130.Slices ![0, 0, 0, 0] S64x8x128x128
  slices_S64x8x130x130_S64x8x128x128_0_0_0_1 : S64x8x130x130.Slices ![0, 0, 0, 1] S64x8x128x128
  slices_S64x8x130x130_S64x8x128x128_0_0_0_2 : S64x8x130x130.Slices ![0, 0, 0, 2] S64x8x128x128
  slices_S64x8x130x130_S64x8x128x128_0_0_1_0 : S64x8x130x130.Slices ![0, 0, 1, 0] S64x8x128x128
  slices_S64x8x130x130_S64x8x128x128_0_0_1_1 : S64x8x130x130.Slices ![0, 0, 1, 1] S64x8x128x128
  slices_S64x8x130x130_S64x8x128x128_0_0_1_2 : S64x8x130x130.Slices ![0, 0, 1, 2] S64x8x128x128
  slices_S64x8x130x130_S64x8x128x128_0_0_2_0 : S64x8x130x130.Slices ![0, 0, 2, 0] S64x8x128x128
  slices_S64x8x130x130_S64x8x128x128_0_0_2_1 : S64x8x130x130.Slices ![0, 0, 2, 1] S64x8x128x128
  slices_S64x8x130x130_S64x8x128x128_0_0_2_2 : S64x8x130x130.Slices ![0, 0, 2, 2] S64x8x128x128
  bcast_S64x8x128x128_S64x8x1x128x128_0_1_3_4 : S64x8x128x128.BroadcastsInDim S64x8x1x128x128 (![0, 1, 3, 4] : Fin 4 → Fin S64x8x1x128x128.rank)
  concatenates_S64x8x1x128x128_S64x8x1x128x128_S64x8x1x128x128_S64x8x1x128x128_S64x8x1x128x128_S64x8x1x128x128_S64x8x1x128x128_S64x8x1x128x128_S64x8x1x128x128_S64x8x9x128x128_d2 : Shape.Concatenates [S64x8x1x128x128, S64x8x1x128x128, S64x8x1x128x128, S64x8x1x128x128, S64x8x1x128x128, S64x8x1x128x128, S64x8x1x128x128, S64x8x1x128x128, S64x8x1x128x128] S64x8x9x128x128 2
  shapeCasts_S64x8x9x128x128_S64x72x16384 : S64x8x9x128x128.ShapeCasts S64x72x16384
  shapeCasts_S64x72x16384_S1x1048576x72 : S64x72x16384.ShapeCasts S1x1048576x72
  shapeCasts_S1x1048576x72_S64x72x128x128 : S1x1048576x72.ShapeCasts S64x72x128x128
  dot_S1x1048576x72_S1x72x72_S1x1048576x72_2_1_1_2_0_0_wf : DotDims.WF S1x1048576x72 S1x72x72 S1x1048576x72 [2] [1] [1] [2] [0] [0]

variable [Facts₀]

def dot_S1x1048576x72_S1x72x72_S1x1048576x72_2_1_1_2_0_0 : DotDims S1x1048576x72 S1x72x72 S1x1048576x72 where
  lhsContracting := [2]
  rhsContracting := [1]
  lhsNonContracting := [1]
  rhsNonContracting := [2]
  lhsBatch := [0]
  rhsBatch := [0]
  wf := dot_S1x1048576x72_S1x72x72_S1x1048576x72_2_1_1_2_0_0_wf

class Facts : Prop extends Facts₀ where

variable [Facts]
-- ==== Proof.AroundBits.lean ====
/-
  The run of `Kernel`'s @main, at any float instance.

  @main is: twenty-five host lines (a zero pad of the image by one pixel on each side, the nine shifted
  128 x 128 slices of it, their stacking along a new axis of extent 9, two row-major reshapes down to a
  1048576 x 72 matrix, and the weight's reshape to 72 x 72), then ONE launch on a grid of 64 points, then one
  row-major reshape of the launch's 1048576 x 72 result to 64 x 72 x 128 x 128.

  At grid point t the launch's body reads rows 16384 t .. 16384 t + 16383 of the matrix (window 0), the whole
  72 x 72 weight (window 1; fetched at the first point only and still in place afterwards), and stores the
  product of the two, from a zero accumulator, over the whole 16384 x 72 block of the result (window 2), which
  is written back at every point.  The body also loads the result block before storing to it; the loaded value
  is used nowhere, so the block may hold anything when the body starts.

  Proved here: what the result block holds after the body (`blockOut`), the body's triple, the pipeline's proof
  data, the body obligation at a generic point, the run of @main (every array of the launch at what the write-backs
  leave, every other buffer as the last reshape leaves it), and from it that the three arguments end unchanged.
-/
import proofs.«126048_j61795989455009_1_alg».proof.Proof.Gen.Kernel.Launch
import proofs.«126048_j61795989455009_1_alg».proof.Proof.Gen.Kernel.Skeleton
import proofs.«126048_j61795989455009_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the launch -/

/-- The core's buffer contents when the launch is entered: the twenty-five host lines before it applied to the
    memory @main starts from. Kept as this fold; nothing below evaluates it. -/
abbrev V0 (c : Dev nD) : Valuation τ sig (Elt F) := StableHlo.after (List.flatten [hostOps0, hostOps0_1, hostOps0_2]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is its three stretches of host lines, the launch, and the closing reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The closing reshape touches only unscoped TensorCore buffers: the launch's arrays or buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result buffer, which is none of the launch's three arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the launch writes argument 0: the launch finds it as it was given. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after it, and argument 0 is none of the launch's three arrays: it ends as given. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line before the launch writes argument 1: the launch finds it as it was given. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after it, and argument 1 is none of the launch's three arrays: it ends as given. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line before the launch writes argument 2: the launch finds it as it was given. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after it, and argument 2 is none of the launch's three arrays: it ends as given. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at grid point `t`, read off the window's array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds that window's block at every grid point, whether the point fetched it or
    not (an unfetched point has the block index of the point before). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds that window's block at every grid point, whether the point fetched it or
    not (an unfetched point has the block index of the point before). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- None of the three arguments is an array of the launch, and no host line writes one: from a run that ends with
    every bypassing buffer as the closing reshape leaves it, each argument ends as it began. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-! ## The body -/

/-- The whole 16384 x 72 block, and the whole 72 x 72 weight: the body's three loads and its store are over these. -/
abbrev rBlock : Rect S16384x72 := Rect.unit (s := S16384x72) ![0, 0] S16384x72.size inb_S16384x72_S16384x72_0_0
abbrev rWeight : Rect S72x72 := Rect.unit (s := S72x72) ![0, 0] S72x72.size inb_S72x72_S72x72_0_0

/-- What the result block holds after the body, from the matrix block `x` and the weight `w`: the body's one store,
    of the product of the two from a zero accumulator, over the whole block. -/
def blockOut (x : Vec F S16384x72 .f32) (w : Vec F S72x72 .f32) : Vec F S16384x72 .f32 :=
  View.canon [⟨rBlock, k0_pay1 (View.ld x rBlock) (View.ld w rWeight)⟩]

/-- The one store covers the block. -/
theorem blockOut_cover (p0 : Vec F S16384x72 .f32) (y : S16384x72.Idx) :
    ∃ pc ∈ ([⟨rBlock, p0⟩] : List (View.Piece (Elt F) S16384x72 .f32)), y ∈ pc.1.set :=
  View.cover_of_tiled [⟨rBlock, p0⟩] S16384x72.size (by rfl) y

set_option maxHeartbeats 1000000 in
/-- The body's triple: with the matrix block at `x`, the weight at `w` and the result block at anything, it runs to
    the end leaving the two inputs as they were and the result block at `blockOut x w`. -/
theorem sound_kernel (c : Dev nD) (E : Set ℕ) (i : grid0.Coords) (arg1 : Memref sig .tc .vmem S16384x72 .f32) (harg1 : arg1.IsWhole) (arg2 : Memref sig .tc .vmem S72x72 .f32) (harg2 : arg2.IsWhole) (arg3 : Memref sig .tc .vmem S16384x72 .f32) (harg3 : arg3.IsWhole)
    (x : Vec F S16384x72 .f32) (w : Vec F S72x72 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (blockOut x w)) -∗ K ⟨⟩))
      ⊢ wp frame (wpE (defs₀ (F := F)) Variants.none c none) E (cc0_matmul_kernel i arg1 harg1 arg2 harg2 arg3 harg3) K := by
  simp only [cc0_matmul_kernel_eq_skeleton]; unfold cc0_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (blockOut_cover _)

/-! ## The pipeline's proof data -/

/-- The arrays as the launch finds them; after the body at point `t` each input's buffer still at its block and the
    result's at `blockOut` of the two input blocks; the invariant is the untouched rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => blockOut (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = blockOut (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the body is handed at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- At any point the two input buffers hold their blocks, so the body's triple applies; the invariant and the
    core's duties pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates, nothing faulting; at the end each array of the launch holds
    what the write-backs leave and every other unscoped buffer what the closing reshape leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The three arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.Kernel.Around

end
-- ==== Proof.AroundIdeal.lean ====
/-
  The run of `KernelIdeal`'s @main, at any float instance.

  @main is: twenty-five host lines (a zero pad of the image by one pixel on each side, the nine shifted
  128 x 128 slices of it, their stacking along a new axis of extent 9, two row-major reshapes down to a
  1048576 x 72 matrix, and the weight's reshape to 72 x 72), then ONE launch on a grid of 64 points, then one
  row-major reshape of the launch's 1048576 x 72 result to 64 x 72 x 128 x 128.

  At grid point t the launch's body reads rows 16384 t .. 16384 t + 16383 of the matrix (window 0), the whole
  72 x 72 weight (window 1; fetched at the first point only and still in place afterwards), and stores the
  product of the two, from a zero accumulator, over the whole 16384 x 72 block of the result (window 2), which
  is written back at every point.  The body also loads the result block before storing to it; the loaded value
  is used nowhere, so the block may hold anything when the body starts.

  Proved here: what the result block holds after the body (`blockOut`), the body's triple, the pipeline's proof
  data, the body obligation at a generic point, the run of @main (every array of the launch at what the write-backs
  leave, every other buffer as the last reshape leaves it), and from it that the three arguments end unchanged.
-/
import proofs.«126048_j61795989455009_1_alg».proof.Proof.Gen.KernelIdeal.Launch
import proofs.«126048_j61795989455009_1_alg».proof.Proof.Gen.KernelIdeal.Skeleton
import proofs.«126048_j61795989455009_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the launch -/

/-- The core's buffer contents when the launch is entered: the twenty-five host lines before it applied to the
    memory @main starts from. Kept as this fold; nothing below evaluates it. -/
abbrev V0 (c : Dev nD) : Valuation τ sig (Elt F) := StableHlo.after (List.flatten [hostOps0, hostOps0_1, hostOps0_2]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is its three stretches of host lines, the launch, and the closing reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The closing reshape touches only unscoped TensorCore buffers: the launch's arrays or buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result buffer, which is none of the launch's three arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the launch writes argument 0: the launch finds it as it was given. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after it, and argument 0 is none of the launch's three arrays: it ends as given. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line before the launch writes argument 1: the launch finds it as it was given. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after it, and argument 1 is none of the launch's three arrays: it ends as given. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line before the launch writes argument 2: the launch finds it as it was given. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after it, and argument 2 is none of the launch's three arrays: it ends as given. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at grid point `t`, read off the window's array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds that window's block at every grid point, whether the point fetched it or
    not (an unfetched point has the block index of the point before). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds that window's block at every grid point, whether the point fetched it or
    not (an unfetched point has the block index of the point before). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- None of the three arguments is an array of the launch, and no host line writes one: from a run that ends with
    every bypassing buffer as the closing reshape leaves it, each argument ends as it began. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-! ## The body -/

/-- The whole 16384 x 72 block, and the whole 72 x 72 weight: the body's three loads and its store are over these. -/
abbrev rBlock : Rect S16384x72 := Rect.unit (s := S16384x72) ![0, 0] S16384x72.size inb_S16384x72_S16384x72_0_0
abbrev rWeight : Rect S72x72 := Rect.unit (s := S72x72) ![0, 0] S72x72.size inb_S72x72_S72x72_0_0

/-- What the result block holds after the body, from the matrix block `x` and the weight `w`: the body's one store,
    of the product of the two from a zero accumulator, over the whole block. -/
def blockOut (x : Vec F S16384x72 .f32) (w : Vec F S72x72 .f32) : Vec F S16384x72 .f32 :=
  View.canon [⟨rBlock, k0_pay1 (View.ld x rBlock) (View.ld w rWeight)⟩]

/-- The one store covers the block. -/
theorem blockOut_cover (p0 : Vec F S16384x72 .f32) (y : S16384x72.Idx) :
    ∃ pc ∈ ([⟨rBlock, p0⟩] : List (View.Piece (Elt F) S16384x72 .f32)), y ∈ pc.1.set :=
  View.cover_of_tiled [⟨rBlock, p0⟩] S16384x72.size (by rfl) y

set_option maxHeartbeats 1000000 in
/-- The body's triple: with the matrix block at `x`, the weight at `w` and the result block at anything, it runs to
    the end leaving the two inputs as they were and the result block at `blockOut x w`. -/
theorem sound_kernel (c : Dev nD) (E : Set ℕ) (i : grid0.Coords) (arg1 : Memref sig .tc .vmem S16384x72 .f32) (harg1 : arg1.IsWhole) (arg2 : Memref sig .tc .vmem S72x72 .f32) (harg2 : arg2.IsWhole) (arg3 : Memref sig .tc .vmem S16384x72 .f32) (harg3 : arg3.IsWhole)
    (x : Vec F S16384x72 .f32) (w : Vec F S72x72 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (blockOut x w)) -∗ K ⟨⟩))
      ⊢ wp frame (wpE (defs₀ (F := F)) Variants.none c none) E (cc0_matmul_kernel i arg1 harg1 arg2 harg2 arg3 harg3) K := by
  simp only [cc0_matmul_kernel_eq_skeleton]; unfold cc0_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (blockOut_cover _)

/-! ## The pipeline's proof data -/

/-- The arrays as the launch finds them; after the body at point `t` each input's buffer still at its block and the
    result's at `blockOut` of the two input blocks; the invariant is the untouched rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => blockOut (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = blockOut (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the body is handed at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- At any point the two input buffers hold their blocks, so the body's triple applies; the invariant and the
    core's duties pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates, nothing faulting; at the end each array of the launch holds
    what the write-backs leave and every other unscoped buffer what the closing reshape leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The three arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.KernelIdeal.Around

end
-- ==== Proof.Unfolded.lean ====
/-
  The launch's two operands as the launch finds them.

  The matrix operand (window 0's array) is the row-major reshape to 1048576 x 72 of the unfolded image: the
  zero-padded image's nine shifted 128 x 128 slices stacked on a new axis of extent 9 and read as 64 x 72 x 16384.
  The weight operand (window 1's array) is the row-major reshape of the 1 x 72 x 72 weight to 72 x 72.
-/
import proofs.«126048_j61795989455009_1_alg».proof.Proof.AroundIdeal
import Idealize.ShloMosaic.Lib.StableHlo.Run
import Idealize.ShloMosaic.PureOps.Ideal

set_option maxRecDepth 16384

noncomputable section

open scoped BigOperators

namespace Cert.KernelIdeal.KValue

open Idealize.ShloMosaic Idealize.ShloMosaic.TcCoe Idealize.SL.Sem Idealize.ShloMosaic.StableHlo
open Cert.KernelIdeal Cert.KernelIdeal.Gen Cert.KernelIdeal.Around
/-! ## The unfolded image -/

/-- The image with a border of zeros one pixel wide on its two spatial axes. -/
def padded (x0 : Vec Ideal S64x8x128x128 .f32) : Vec Ideal S64x8x130x130 .f32 :=
  pad S64x8x130x130 ![0, 0, 1, 1] ![0, 0, 1, 1] ![0, 0, 0, 0] x0 (sitofp (F := Ideal) .f32 (constantI S_ 32 0#32)) pads_S64x8x128x128_S64x8x130x130_000_000_110_110 h_S_

/-- The 128 x 128 slice of the padded image that starts at spatial offset (dy, dx), with a unit axis put in front
    of the spatial axes. -/
def shifted (x0 : Vec Ideal S64x8x128x128 .f32) (dy dx : Nat) (h : S64x8x130x130.Slices ![0, 0, dy, dx] S64x8x128x128) : Vec Ideal S64x8x1x128x128 .f32 :=
  broadcastInDim S64x8x1x128x128 ![0, 1, 3, 4] bcast_S64x8x128x128_S64x8x1x128x128_0_1_3_4 (extractStridedSlice S64x8x128x128 ![0, 0, dy, dx] (padded x0) h)

/-- The nine shifted slices stacked along the unit axis, in the order (0,0), (0,1), ..., (2,2), and read as 64 x 72 x 16384. -/
def unfolded (x0 : Vec Ideal S64x8x128x128 .f32) : Vec Ideal S64x72x16384 .f32 :=
  shapeCast S64x72x16384 (concatenate S64x8x9x128x128 2 [⟨S64x8x1x128x128, shifted x0 0 0 slices_S64x8x130x130_S64x8x128x128_0_0_0_0⟩, ⟨S64x8x1x128x128, shifted x0 0 1 slices_S64x8x130x130_S64x8x128x128_0_0_0_1⟩, ⟨S64x8x1x128x128, shifted x0 0 2 slices_S64x8x130x130_S64x8x128x128_0_0_0_2⟩, ⟨S64x8x1x128x128, shifted x0 1 0 slices_S64x8x130x130_S64x8x128x128_0_0_1_0⟩, ⟨S64x8x1x128x128, shifted x0 1 1 slices_S64x8x130x130_S64x8x128x128_0_0_1_1⟩, ⟨S64x8x1x128x128, shifted x0 1 2 slices_S64x8x130x130_S64x8x128x128_0_0_1_2⟩, ⟨S64x8x1x128x128, shifted x0 2 0 slices_S64x8x130x130_S64x8x128x128_0_0_2_0⟩, ⟨S64x8x1x128x128, shifted x0 2 1 slices_S64x8x130x130_S64x8x128x128_0_0_2_1⟩, ⟨S64x8x1x128x128, shifted x0 2 2 slices_S64x8x130x130_S64x8x128x128_0_0_2_2⟩] concatenates_S64x8x1x128x128_S64x8x1x128x128_S64x8x1x128x128_S64x8x1x128x128_S64x8x1x128x128_S64x8x1x128x128_S64x8x1x128x128_S64x8x1x128x128_S64x8x1x128x128_S64x8x9x128x128_d2) shapeCasts_S64x8x9x128x128_S64x72x16384

variable (m : (ℓ : Loc nD τ sig) → Buf (Elt Ideal) ℓ) (ρ : Dev nD → PrngReg)

/-! ## The launch's two operands -/

set_option maxHeartbeats 2000000 in
/-- The matrix operand, as the launch finds it, is the 1048576 x 72 reading of the unfolded image. -/
theorem V_rows (c : Dev nD) : (V m c main_v21 : S1048576x72.Idx → EReal)
    = shapeCast S1048576x72 (unfolded (m ((c : Thread nD τ).loc main_arg0))) shapeCasts_S64x72x16384_S1048576x72 := by
  dsimp only [V, V0]
  simp only [hostOps0, hostOps0_1, hostOps0_2, List.flatten_cons, List.flatten_nil, List.append_nil, List.cons_append, List.nil_append]
  after_results
  rfl

/-- The weight operand, as the launch finds it, is the 72 x 72 reading of the weight. -/
theorem V_weight (c : Dev nD) : (V m c main_v22 : S72x72.Idx → EReal)
    = shapeCast S72x72 (m ((c : Thread nD τ).loc main_arg1)) shapeCasts_S1x72x72_S72x72 := by
  dsimp only [V, V0]
  simp only [hostOps0, hostOps0_1, hostOps0_2, List.flatten_cons, List.flatten_nil, List.append_nil, List.cons_append, List.nil_append]
  after_results
  rfl

end Cert.KernelIdeal.KValue

end
-- ==== Proof.Block.lean ====
/-
  The body's product block, index by index.

  The matrix unit's product from a zero accumulator, read at (r, p), is the sum over k of the left block's (r, k)
  times the weight's (k, p); the body's two shape casts are between equal shapes.  If the left block is rows
  16384 t .. 16384 t + 16383 of a 1048576 x 72 matrix, that value is entry (16384 t + r, p) of the matrix's product
  with the weight (`rowsTimes`).
-/
import proofs.«126048_j61795989455009_1_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.KValue

open Idealize.ShloMosaic Idealize.ShloMosaic.ValueIdx
open Cert.KernelIdeal Cert.KernelIdeal.Gen
/-! ## The body's product at an index -/

theorem lhs_axis0 (i : S16384x72.Idx) (q : dot_S16384x72_S72x72_S16384x72_1_0_0_1_n_n.contr.Idx) :
    (dot_S16384x72_S72x72_S16384x72_1_0_0_1_n_n.lhsIdx i q 0).val = (i 0).val := by
  unfold DotDims.lhsIdx
  rw [dif_neg (show ¬(0 : Fin S16384x72.rank) ∈ dot_S16384x72_S72x72_S16384x72_1_0_0_1_n_n.lhsBatch by decide), dif_pos (show (0 : Fin S16384x72.rank) ∈ dot_S16384x72_S72x72_S16384x72_1_0_0_1_n_n.lhsNonContracting by decide)]
  rfl
theorem lhs_axis1 (i : S16384x72.Idx) (q : dot_S16384x72_S72x72_S16384x72_1_0_0_1_n_n.contr.Idx) :
    (dot_S16384x72_S72x72_S16384x72_1_0_0_1_n_n.lhsIdx i q 1).val = (q ⟨0, by decide⟩).val :=
  dot_S16384x72_S72x72_S16384x72_1_0_0_1_n_n.lhsIdx_val_of_single rfl i q
theorem rhs_axis0 (i : S16384x72.Idx) (q : dot_S16384x72_S72x72_S16384x72_1_0_0_1_n_n.contr.Idx) :
    (dot_S16384x72_S72x72_S16384x72_1_0_0_1_n_n.rhsIdx i q 0).val = (q ⟨0, by decide⟩).val :=
  dot_S16384x72_S72x72_S16384x72_1_0_0_1_n_n.rhsIdx_val_of_single rfl i q
theorem rhs_axis1 (i : S16384x72.Idx) (q : dot_S16384x72_S72x72_S16384x72_1_0_0_1_n_n.contr.Idx) :
    (dot_S16384x72_S72x72_S16384x72_1_0_0_1_n_n.rhsIdx i q 1).val = (i 1).val := by
  unfold DotDims.rhsIdx
  rw [dif_neg (show ¬(1 : Fin S72x72.rank) ∈ dot_S16384x72_S72x72_S16384x72_1_0_0_1_n_n.rhsBatch by decide), dif_pos (show (1 : Fin S72x72.rank) ∈ dot_S16384x72_S72x72_S16384x72_1_0_0_1_n_n.rhsNonContracting by decide)]
  rfl

/-- The body's stored value at (r, p): the sum over k of the loaded block's (r, k) times the loaded weight's (k, p). -/
theorem pay_apply (x : Vec Ideal S16384x72 .f32) (w : Vec Ideal S72x72 .f32) (y : S16384x72.Idx) :
    k0_pay1 (F := Ideal) x w y = ∑ k : Fin 72, x (ix2 (n0 := 16384) (n1 := 72) (y 0) k) * w (ix2 (n0 := 72) (n1 := 72) k (y 1)) := by
  unfold k0_pay1
  simp only [shapeCast_self, matmul]
  rw [Ideal.matmul_constant_zero_apply, ← Equiv.sum_comp (contrEquiv1 dot_S16384x72_S72x72_S16384x72_1_0_0_1_n_n 72 rfl rfl).symm]
  refine Finset.sum_congr rfl fun k _ => ?_
  have hk := contrEquiv1_symm_val dot_S16384x72_S72x72_S16384x72_1_0_0_1_n_n 72 rfl rfl k
  have el : dot_S16384x72_S72x72_S16384x72_1_0_0_1_n_n.lhsIdx y ((contrEquiv1 dot_S16384x72_S72x72_S16384x72_1_0_0_1_n_n 72 rfl rfl).symm k) = ix2 (n0 := 16384) (n1 := 72) (y 0) k := funext fun a => Fin.ext (by
    match a with
    | ⟨0, _⟩ => exact lhs_axis0 _ _
    | ⟨1, _⟩ => exact (lhs_axis1 _ _).trans hk)
  have er : dot_S16384x72_S72x72_S16384x72_1_0_0_1_n_n.rhsIdx y ((contrEquiv1 dot_S16384x72_S72x72_S16384x72_1_0_0_1_n_n 72 rfl rfl).symm k) = ix2 (n0 := 72) (n1 := 72) k (y 1) := funext fun a => Fin.ext (by
    match a with
    | ⟨0, _⟩ => exact (rhs_axis0 _ _).trans hk
    | ⟨1, _⟩ => exact rhs_axis1 _ _)
  rw [el, er]

/-! ## The product array -/

/-- The 1048576 x 72 product of a matrix with a 72 x 72 weight, entry by entry. -/
def rowsTimes (X : Vec Ideal S1048576x72 .f32) (W : Vec Ideal S72x72 .f32) : Vec Ideal S1048576x72 .f32 :=
  fun j => ∑ k : Fin 72, X (ix2 (n0 := 1048576) (n1 := 72) (j 0) k) * W (ix2 (n0 := 72) (n1 := 72) k (j 1))

theorem hz : (![0, 0] : Fin 2 → Nat) = fun _ => 0 := funext fun a => by fin_cases a <;> rfl

/-- The product block against the product array, over plain vectors: if the block `x` is rows 16384 t .. of `X` and
    `w` is `W`, the body's value at `y` is `rowsTimes X W` at row 16384 t + y 0, column y 1. -/
theorem block_value (X : Vec Ideal S1048576x72 .f32) (W : Vec Ideal S72x72 .f32) (x : Vec Ideal S16384x72 .f32) (w : Vec Ideal S72x72 .f32)
    (t : Nat) (hx : ∀ (y : S16384x72.Idx) (z : S1048576x72.Idx), (z 0).val = t * 16384 + (y 0).val → (z 1).val = (y 1).val → x y = X z)
    (hw : w = W) (y : S16384x72.Idx) (z : S1048576x72.Idx) (hz0 : (z 0).val = t * 16384 + (y 0).val) (hz1 : (z 1).val = (y 1).val) :
    k0_pay1 (F := Ideal) x w y = rowsTimes X W z := by
  rw [pay_apply, hw]
  unfold rowsTimes
  refine Finset.sum_congr rfl fun k _ => ?_
  rw [hx (ix2 (n0 := 16384) (n1 := 72) (y 0) k) (ix2 (n0 := 1048576) (n1 := 72) (z 0) k) hz0 rfl]
  exact congrArg (fun q => X (ix2 (n0 := 1048576) (n1 := 72) (z 0) k) * W q) (funext fun a => Fin.ext (by
    match a with
    | ⟨0, _⟩ => rfl
    | ⟨1, _⟩ => exact hz1.symm))

end Cert.KernelIdeal.KValue

end
-- ==== Proof.Product.lean ====
/-
  The function both programs compute, over the extended reals.

  Both programs first unfold the image into an array U of shape 64 x 72 x 16384 (nine shifted copies of the
  zero-padded image stacked per channel; the two programs do this with the same operations, so U is carried
  here as a variable).  Read in row-major order U is a matrix of 1048576 rows and 72 columns: entry (r, k) of
  that matrix sits at row-major position 72 r + k of U.  The result is that matrix times the 72 x 72 weight w,
  and the 1048576 x 72 product is read back in row-major order as a 64 x 72 x 128 x 128 array: the entry at an
  index of row-major position f is entry (f / 72, f % 72) of the product,

      out f = sum over k < 72 of  U[72 (f / 72) + k] * w[k, f % 72].

  No law of the extended reals is needed to join the two programs: each computes exactly this sum of 72
  products, in this order of k, from a zero start.
-/
import Idealize.ShloMosaic.Lib.ValueIdx
import Idealize.ShloMosaic.PureOps.Ideal

noncomputable section

open scoped BigOperators

namespace Cert.Stacked

open Idealize.ShloMosaic Idealize.ShloMosaic.ValueIdx

/-- The unfolded image, the weight, the row matrix and the result, by their literal extents. -/
abbrev ShU : Shape := ⟨3, ![64, 72, 16384]⟩
abbrev ShW : Shape := ⟨3, ![1, 72, 72]⟩
abbrev ShO : Shape := ⟨4, ![64, 72, 128, 128]⟩

/-- The row-major position of an index of the result. -/
def pos (i : ShO.Idx) : Nat := (((i 0).val * 72 + (i 1).val) * 128 + (i 2).val) * 128 + (i 3).val

theorem pos_lt (i : ShO.Idx) : pos i < 75497472 := by
  have h0 : (i 0).val < 64 := (i 0).isLt
  have h1 : (i 1).val < 72 := (i 1).isLt
  have h2 : (i 2).val < 128 := (i 2).isLt
  have h3 : (i 3).val < 128 := (i 3).isLt
  unfold pos; omega

/-- The row of the product an index of the result reads, and the column. -/
def row (i : ShO.Idx) : Fin 1048576 := ⟨pos i / 72, by have := pos_lt i; omega⟩
def col (i : ShO.Idx) : Fin 72 := ⟨pos i % 72, Nat.mod_lt _ (by decide)⟩

theorem row_val (i : ShO.Idx) : (row i).val = pos i / 72 := rfl
theorem col_val (i : ShO.Idx) : (col i).val = pos i % 72 := rfl

/-- Where entry (r, k) of the row matrix sits in the unfolded image: the index of row-major position 72 r + k. -/
abbrev uAt (r : Fin 1048576) (k : Fin 72) : ShU.Idx :=
  ix3 (n0 := 64) (n1 := 72) (n2 := 16384)
    ⟨(r.val * 72 + k.val) / 1179648, by have := r.isLt; have := k.isLt; omega⟩
    ⟨(r.val * 72 + k.val) / 16384 % 72, Nat.mod_lt _ (by decide)⟩
    ⟨(r.val * 72 + k.val) % 16384, Nat.mod_lt _ (by decide)⟩

/-- Entry (k, p) of the weight. -/
abbrev wAt (k p : Fin 72) : ShW.Idx := ix3 (n0 := 1) (n1 := 72) (n2 := 72) ⟨0, Nat.one_pos⟩ k p

/-- The result: at each index the sum over k of the row matrix's entry (row, k) times the weight's (k, column). -/
def stacked (U : ShU.Idx → EReal) (w : ShW.Idx → EReal) : ShO.Idx → EReal :=
  fun i => ∑ k : Fin 72, U (uAt (row i) k) * w (wAt k (col i))

end Cert.Stacked

end
-- ==== Proof.KernelSide.lean ====
/-
  What the idealized kernel's @main leaves in its result buffer, over the extended reals.

  At grid point t the matrix block is rows 16384 t .. 16384 t + 16383 of the launch's matrix operand and the weight
  block is the whole weight operand, so what point t writes back is block t of ONE function of the two operands,
  `rowsTimes` (Proof/Block.lean).  The 64 blocks tile the 1048576 rows, so the result array ends at `rowsTimes` of
  the operands.  The closing reshape reads it at an index of row-major position f as entry (f / 72, f % 72); with
  the operands read back to the unfolded image and the weight (Proof/Unfolded.lean), that entry is the sum over k of
  the unfolded image at row-major position 72 (f / 72) + k times the weight at (k, f % 72): `Cert.Stacked.stacked`
  (Proof/Product.lean).
-/
import proofs.«126048_j61795989455009_1_alg».proof.Proof.AroundIdeal
import proofs.«126048_j61795989455009_1_alg».proof.Proof.Unfolded
import proofs.«126048_j61795989455009_1_alg».proof.Proof.Block
import proofs.«126048_j61795989455009_1_alg».proof.Proof.Product
import Idealize.ShloMosaic.Lib.Pipeline.Value
import Idealize.ShloMosaic.Lib.ValueIdx
import Idealize.ShloMosaic.Lib.StableHlo.Run

set_option maxRecDepth 16384

noncomputable section

open scoped BigOperators

namespace Cert.KernelIdeal.KValue

open Idealize.ShloMosaic Idealize.ShloMosaic.TcCoe Idealize.SL.Sem Idealize.ShloMosaic.StableHlo
open Idealize.ShloMosaic.ValueIdx
open Idealize.ShloMosaic.Pipeline (Dat Cfg Window)
open Cert.KernelIdeal Cert.KernelIdeal.Gen Cert.KernelIdeal.Around Cert.Stacked

variable (m : (ℓ : Loc nD τ sig) → Buf (Elt Ideal) ℓ) (ρ : Dev nD → PrngReg)

/-! ## From blocks to the array -/

/-- The three index maps over the grid: the matrix and result windows sit at block row t, the weight at (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT t WRITES BACK is block t of `rowsTimes` of the two operands as the launch finds them. -/
theorem flushed_eq (c : Dev nD) (t : Fin cfg0.N) :
    (dats m 0 c).flushed 2 t = ((cfg0.win 2).blk t).view.read (Elt Ideal) (rowsTimes (V m c main_v21) (V m c main_v22)) := by
  show (cfg0.win 2).cut (grid0.coords t) ((dats m 0 c).after 2 t) = _
  rw [after0_2]
  unfold blockOut
  rw [View.canon_unit_zero hz]
  simp only [View.ld_unit_zero (S := S16384x72) hz, View.ld_unit_zero (S := S72x72) hz]
  obtain ⟨e0, e1, e2, e3, e4, e5⟩ := idx_facts t
  funext y
  rw [View.read_apply, cast_eq]
  refine block_value (V m c main_v21) (V m c main_v22) (iblk m c 0 t) (iblk m c 1 t) t.val ?_ ?_
    ((cfg0.win 2).xinj (grid0.coords t) y) (((cfg0.win 2).blk t).view.emb y) ?_ ?_
  · intro y' z h0 h1
    unfold iblk
    rw [View.read_apply, cast_eq]
    refine congrArg (V m c main_v21) (funext fun a => Fin.ext ?_)
    match a with
    | ⟨0, _⟩ => show win0_0.index t (0 : Fin 2) * 16384 + 1 * (y' 0).val = (z 0).val; omega
    | ⟨1, _⟩ => show win0_0.index t (1 : Fin 2) * 72 + 1 * (y' 1).val = (z 1).val; omega
  · funext y'
    unfold iblk
    rw [View.read_apply, cast_eq]
    refine congrArg (V m c main_v22) (funext fun a => Fin.ext ?_)
    match a with
    | ⟨0, _⟩ => show win0_1.index t (0 : Fin 2) * 72 + 1 * (y' 0).val = (y' 0).val; omega
    | ⟨1, _⟩ => show win0_1.index t (1 : Fin 2) * 72 + 1 * (y' 1).val = (y' 1).val; omega
  · show win0_2.index t (0 : Fin 2) * 16384 + 1 * (y 0).val = t.val * 16384 + (y 0).val; omega
  · show win0_2.index t (1 : Fin 2) * 72 + 1 * (y 1).val = (y 1).val; omega

/-- An index of the result array is in point t's block iff each coordinate is in the block's range. -/
theorem mem_blk (t : Fin cfg0.N) (i : S1048576x72.Idx) :
    i ∈ ((cfg0.win 2).blk t).view.set ↔ ∀ a : Fin 2, win0_2.index t a * S16384x72.size a ≤ (i a).val ∧ (i a).val < win0_2.index t a * S16384x72.size a + S16384x72.size a := by
  show i ∈ ((View.whole main_v23).slice (win0_2.rect t)).set ↔ _
  rw [View.set_slice_whole, Rect.mem_set_unit]
  exact Iff.rfl

/-- Row r of the result lies in the block of point r / 16384: the 64 blocks tile the array. -/
theorem cover (i : S1048576x72.Idx) : ∃ t : Fin cfg0.N, (cfg0.win 2).flush t = true ∧ i ∈ ((cfg0.win 2).blk t).view.set := by
  have hi0 : (i 0).val < 1048576 := (i 0).isLt
  have hi1 : (i 1).val < 72 := (i 1).isLt
  have hN : (i 0).val / 16384 < cfg0.N := by show _ < grid0.N; rw [N_0]; omega
  obtain ⟨-, -, -, -, e4, e5⟩ := idx_facts ⟨(i 0).val / 16384, hN⟩
  have e4' : win0_2.index ⟨(i 0).val / 16384, hN⟩ (0 : Fin 2) = (i 0).val / 16384 := e4
  refine ⟨⟨(i 0).val / 16384, hN⟩, flush0_2 _, ?_⟩
  rw [mem_blk]
  intro a
  match a with
  | ⟨0, _⟩ => show win0_2.index ⟨(i 0).val / 16384, hN⟩ (0 : Fin 2) * 16384 ≤ (i 0).val ∧ (i 0).val < win0_2.index ⟨(i 0).val / 16384, hN⟩ (0 : Fin 2) * 16384 + 16384; omega
  | ⟨1, _⟩ => show win0_2.index ⟨(i 0).val / 16384, hN⟩ (1 : Fin 2) * 72 ≤ (i 1).val ∧ (i 1).val < win0_2.index ⟨(i 0).val / 16384, hN⟩ (1 : Fin 2) * 72 + 72; omega

/-- The result array after the launch. -/
theorem final (c : Dev nD) : (dats m 0 c).arrAt 2 cfg0.N = rowsTimes (V m c main_v21) (V m c main_v22) :=
  (dats m 0 c).arrAt_eq_of_cover 2 _ (fun t _ => flushed_eq m c t) cover

/-! ## The closing reshape, and the result at an index -/

/-- @main's result buffer ends at the 64 x 72 x 128 x 128 reading of the product array. -/
theorem result_tail (c : Dev nD) : (Pipeline.afterTail₀ cfgs (dats m) 0 (V0 m) [hostOps1] c main_v24 : S64x72x128x128.Idx → EReal)
    = shapeCast S64x72x128x128 (rowsTimes (V m c main_v21) (V m c main_v22)) shapeCasts_S1048576x72_S64x72x128x128 := by
  unfold Pipeline.afterTail₀
  show StableHlo.after hostOps1 _ (Proc.devRef .tc main_v24) = _
  after_results
  exact congrArg (fun z => shapeCast S64x72x128x128 z shapeCasts_S1048576x72_S64x72x128x128)
    ((Pipeline.withArrays_arr spec0 launch0.win.arr_inj c _ _ 2).trans (final m c))

/-- That reading, index by index, is `stacked` of the unfolded image and the weight. -/
theorem result_value (c : Dev nD) :
    shapeCast S64x72x128x128 (rowsTimes (V m c main_v21) (V m c main_v22)) shapeCasts_S1048576x72_S64x72x128x128
      = stacked (unfolded (m ((c : Thread nD τ).loc main_arg0))) (m ((c : Thread nD τ).loc main_arg1)) := by
  funext i
  have hp := pos_lt i
  rw [shapeCast_apply _ shapeCasts_S1048576x72_S64x72x128x128 i (ix2 (n0 := 1048576) (n1 := 72) (row i) (col i))
    (by rewrite [Shape.rowMajor_val_two, Shape.rowMajor_val_four]
        show (row i).val * 72 + (col i).val = (((i 0).val * 72 + (i 1).val) * 128 + (i 2).val) * 128 + (i 3).val
        rw [row_val, col_val]; unfold pos; omega)]
  unfold rowsTimes stacked
  refine Finset.sum_congr rfl fun k _ => ?_
  rw [V_rows, V_weight]
  rw [shapeCast_apply _ shapeCasts_S64x72x16384_S1048576x72 (ix2 (n0 := 1048576) (n1 := 72) (row i) k) (uAt (row i) k)
    (by rewrite [Shape.rowMajor_val_three, Shape.rowMajor_val_two]
        have hr := (row i).isLt; have hk := k.isLt
        show (((row i).val * 72 + k.val) / 1179648 * 72 + ((row i).val * 72 + k.val) / 16384 % 72) * 16384 + ((row i).val * 72 + k.val) % 16384 = (row i).val * 72 + k.val
        omega),
    shapeCast_apply _ shapeCasts_S1x72x72_S72x72 (ix2 (n0 := 72) (n1 := 72) k (col i)) (wAt k (col i))
    (by rewrite [Shape.rowMajor_val_three, Shape.rowMajor_val_two]
        show (0 * 72 + k.val) * 72 + (col i).val = k.val * 72 + (col i).val
        omega)]

/-! ## The run, read -/

/-- Every weakly fair execution of the idealized kernel's @main terminates with the result buffer at `stacked` of
    the unfolded image and the weight, and the three arguments unchanged. -/
theorem run : θ_run defs (onTc (τ := τ) (main (F := Ideal))) ⟨m, fun _ => 0, ρ⟩ fun r => ∀ c : Dev nD,
      r.2.mem ((c.tc : Thread nD τ).loc main_v24) = stacked (unfolded (m ((c : Thread nD τ).loc main_arg0))) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v24 (Pipeline.mem_restRefs_of main_v24 (by decide) (by decide))).trans ((result_tail m c).trans (result_value m c)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.KValue

end
-- ==== Proof.RefSide.lean ====
/-
  The reference's result is the product of the row matrix of the unfolded image with the weight.

  The reference reshapes the unfolded image U (64 x 72 x 16384) to 1 x 1048576 x 72, contracts its last axis with
  the middle axis of the 1 x 72 x 72 weight (the leading unit axis is a batch axis), and reshapes the
  1 x 1048576 x 72 product to 64 x 72 x 128 x 128.  At an index of the result of row-major position f this is
  the sum over k of U at row-major position 72 (f / 72) + k times the weight at (0, k, f % 72): the two reshapes
  only re-read a row-major position in other coordinates.
-/
import proofs.«126048_j61795989455009_1_alg».proof.Proof.Gen.ReferenceIdeal.Read
import proofs.«126048_j61795989455009_1_alg».proof.Proof.Product

noncomputable section

open scoped BigOperators

namespace Cert.ReferenceIdeal.RefValue

open Cert.ReferenceIdeal Cert.ReferenceIdeal.Read Idealize.ShloMosaic Idealize.ShloMosaic.ValueIdx Cert.Stacked

/-- The left factor's index: the result's index taken through the last reshape, the product's left operand at
    contraction index k, and the reshape of U, is the index of row-major position 72 (f / 72) + k. -/
theorem left_index (i : S64x72x128x128.Idx) (k : Fin 72) :
    idx_main_v21 (lidx_main_v22 (idx_main_v23 i) k) = uAt (row i) k := by
  have h0 : (i 0).val < 64 := (i 0).isLt
  have h1 : (i 1).val < 72 := (i 1).isLt
  have h2 : (i 2).val < 128 := (i 2).isLt
  have h3 : (i 3).val < 128 := (i 3).isLt
  have hk : k.val < 72 := k.isLt
  funext a; apply Fin.ext
  match a with
  | ⟨0, _⟩ => simp only [row, pos]; omega
  | ⟨1, _⟩ => simp only [row, pos]; omega
  | ⟨2, _⟩ => simp only [row, pos]; omega

/-- The right factor's index is (0, k, f % 72). -/
theorem right_index (i : S64x72x128x128.Idx) (k : Fin 72) :
    ridx_main_v22 (idx_main_v23 i) k = wAt k (col i) := by
  funext a; apply Fin.ext
  match a with
  | ⟨0, _⟩ => rfl
  | ⟨1, _⟩ => rfl
  | ⟨2, _⟩ => simp only [col, pos]

/-- The reference's result, as a function of the image and the weight, is `stacked` of the reference's unfolded
    image and the weight. -/
theorem result_eq (x0 : (⟨S64x8x128x128, .f32⟩ : BufTy).Contents (Elt Ideal)) (x1 : (⟨S1x72x72, .f32⟩ : BufTy).Contents (Elt Ideal)) :
    val_main_v23 (F := Ideal) x0 x1 = stacked (val_main_v20 (F := Ideal) x0) x1 := by
  funext i
  rw [val_main_v23_apply, val_main_v22_apply]
  unfold stacked
  refine Finset.sum_congr rfl fun k _ => ?_
  rw [val_main_v21_apply, left_index, right_index]

end Cert.ReferenceIdeal.RefValue

end
-- ==== Proof.lean ====
/-
  The certificate: an im2col convolution written as one matrix product.

  Both programs zero-pad the 64 x 8 x 128 x 128 image by one pixel, take its nine shifted 128 x 128 slices, stack
  them per channel, and read the 64 x 72 x 16384 stack in row-major order as a matrix of 1048576 rows and 72
  columns.  The kernel multiplies that matrix by the 72 x 72 weight in 64 row blocks of 16384 rows on the matrix
  unit, each block's product started from zero; the reference contracts the same matrix with the weight in one
  `dot_general`.  Over the extended reals both results are, entry by entry, the same sum of 72 products in the same
  order (`Cert.Stacked.stacked`), read back as a 64 x 72 x 128 x 128 array; the precondition is not used.

  The three runs: the kernel's at the word-level and at the ideal instance (host lines, the launch, the closing
  reshape: Proof/AroundBits.lean, Proof/AroundIdeal.lean), and the reference's (a straight line of host operations).
  The idealization rewrote nothing, so `preserves` has no conjunct.
-/
import proofs.«126048_j61795989455009_1_alg».proof.Defs
import proofs.«126048_j61795989455009_1_alg».proof.Proof.Gen.Kernel
import proofs.«126048_j61795989455009_1_alg».proof.Proof.Gen.KernelIdeal
import proofs.«126048_j61795989455009_1_alg».proof.Proof.Gen.ReferenceIdeal
import proofs.«126048_j61795989455009_1_alg».proof.Proof.Gen.Pre_finite_inputs
import proofs.«126048_j61795989455009_1_alg».proof.Proof.Gen.ReferenceIdeal.Run
import proofs.«126048_j61795989455009_1_alg».proof.Proof.Gen.ReferenceIdeal.Read
import proofs.«126048_j61795989455009_1_alg».proof.Proof.AroundBits
import proofs.«126048_j61795989455009_1_alg».proof.Proof.AroundIdeal
import proofs.«126048_j61795989455009_1_alg».proof.Proof.KernelSide
import proofs.«126048_j61795989455009_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernel runs to the end and leaves its three arguments unchanged. -/
theorem frame_bits : Cert.frame_Kernel := fun m ρ _ => Cert.Kernel.Around.frame m ρ

/-- So does the idealized kernel. -/
theorem frame_ideal : Cert.frame_KernelIdeal := fun m ρ _ => Cert.KernelIdeal.Around.frame m ρ

/-- The reference is a straight line of host operations: its run, with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- The two programs unfold the image by the same operations on the same shapes: their unfolded images are one
    function of the image. -/
theorem unfolded_eq (x0 : Vec Ideal Cert.KernelIdeal.S64x8x128x128 .f32) :
    Cert.KernelIdeal.KValue.unfolded x0 = Cert.ReferenceIdeal.Read.val_main_v20 (F := Ideal) x0 := rfl

/-- From memories that agree on the arguments both programs end with the result at `stacked` of the unfolded image
    and the weight. -/
theorem algebraic : Cert.algebraic_KernelIdeal_ReferenceIdeal := by
  intro m ρ m' ρ' _ hagree
  refine ⟨fun c => Cert.Stacked.stacked (Cert.KernelIdeal.KValue.unfolded (m ((c.tc : Thread Cert.KernelIdeal.nD Cert.KernelIdeal.τ).loc Cert.KernelIdeal.main_arg0)))
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.result_eq, (hagree c).1, (hagree c).2.1]
  exact congrArg (fun u => Cert.Stacked.stacked u _) (unfolded_eq _).symm

theorem claim : Cert.Claim :=
  ⟨Cert.Kernel.Gen.facts, Cert.KernelIdeal.Gen.facts, Cert.ReferenceIdeal.Gen.facts, Cert.Pre_finite_inputs.Gen.facts,
    frame_bits, frame_ideal, frame_ref, preserves, algebraic⟩

end Cert.Proof

end
